-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel

variable [Facts]

def fn {F : FTy → Type} [FloatOps F] (main_arg0 : FVec F S8x64x64x64 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  main_v3
-- ==== Kernel.lean ====
abbrev S8x64x64x64 : Shape := ⟨4, ![8, 64, 64, 64]⟩
abbrev S8x64x4096 : Shape := ⟨3, ![8, 64, 4096]⟩
abbrev S8x4096x64 : Shape := ⟨3, ![8, 4096, 64]⟩
abbrev S8x4096x4096 : Shape := ⟨3, ![8, 4096, 4096]⟩
abbrev S1x64x4096 : Shape := ⟨3, ![1, 64, 4096]⟩
abbrev S1x4096x64 : Shape := ⟨3, ![1, 4096, 64]⟩
abbrev S1x512x64 : Shape := ⟨3, ![1, 512, 64]⟩
abbrev S1x512x4096 : Shape := ⟨3, ![1, 512, 4096]⟩
abbrev S64x4096 : Shape := ⟨2, ![64, 4096]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x64 : Shape := ⟨3, ![1, 1024, 64]⟩
abbrev S1024x64 : Shape := ⟨2, ![1024, 64]⟩

abbrev nBuf : Space → Nat
  | .hbm => 9
  | .vmem => 8
  | .smem => 0
  | _ => 0

abbrev bufTy : (tb : Table) → Fin (tcTables nBuf tb) → BufTy
  | .hbm, ⟨0, _⟩ => ⟨S8x64x64x64, .f32⟩
  | .hbm, ⟨1, _⟩ => ⟨S8x64x4096, .f32⟩
  | .hbm, ⟨2, _⟩ => ⟨S8x4096x64, .f32⟩
  | .hbm, ⟨3, _⟩ => ⟨S8x64x4096, .bf16⟩
  | .hbm, ⟨4, _⟩ => ⟨S8x4096x64, .bf16⟩
  | .hbm, ⟨5, _⟩ => ⟨S8x4096x64, .f32⟩
  | .hbm, ⟨6, _⟩ => ⟨S8x4096x4096, .f32⟩
  | .hbm, ⟨7, _⟩ => ⟨S8x64x4096, .f32⟩
  | .hbm, ⟨8, _⟩ => ⟨S8x64x64x64, .f32⟩
  | .local _ .vmem, ⟨0, _⟩ => ⟨S1x64x4096, .bf16⟩
  | .local _ .vmem, ⟨1, _⟩ => ⟨S1x64x4096, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x512x64, .f32⟩
  | .local _ .vmem, ⟨5, _⟩ => ⟨S1x512x64, .f32⟩
  | .local _ .vmem, ⟨6, _⟩ => ⟨S1x512x4096, .f32⟩
  | .local _ .vmem, ⟨7, _⟩ => ⟨S1x512x4096, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_2 : Index := 0#32
  let arg1 : BitVec 32 := BitVec.ofNat 32 (i 1).val
  let c512_i32 : BitVec 32 := 512#32
  let v0 : BitVec 32 := Scalar.muli arg1 c512_i32
  let v1 : BitVec 32 := v0
  let v4 : Index := Scalar.indexCast v1
  let c0_3 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x64x64x64_S8x64x4096 : S8x64x64x64.ShapeCasts S8x64x4096
  transposes_S8x64x4096_S8x4096x64_0_2_1 : S8x64x4096.Transposes [0, 2, 1] S8x4096x64
  bitsLt_bf16_f32 : FTy.bits .bf16 < FTy.bits .f32
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  h_S1x512x64 : 0 < S1x512x64.numel
  shapeCasts_S1x512x64_S512x64 : S1x512x64.ShapeCasts S512x64
  reduces_S512x4096_S512 : S512x4096.Reduces [1] S512
  shapeCasts_S512_S512x1 : S512.ShapeCasts S512x1
  broadcasts_S512x1_S512x4096 : S512x1.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  inb_S1x512x4096_S1x512x1024_0_0_0 : ∀ a, (![0, 0, 0] : Fin 3 → Nat) a + S1x512x1024.size a ≤ S1x512x4096.size a
  h_S1x512x1024 : 0 < S1x512x1024.numel
  shapeCasts_S1x512x1024_S512x1024 : S1x512x1024.ShapeCasts S512x1024
  inb_S1x4096x64_S1x1024x64_0_0_0 : ∀ a, (![0, 0, 0] : Fin 3 → Nat) a + S1x1024x64.size a ≤ S1x4096x64.size a
  h_S1x1024x64 : 0 < S1x1024x64.numel
  shapeCasts_S1x1024x64_S1024x64 : S1x1024x64.ShapeCasts S1024x64
  inb_S1x512x4096_S1x512x1024_0_0_1024 : ∀ a, (![0, 0, 1024] : Fin 3 → Nat) a + S1x512x1024.size a ≤ S1x512x4096.size a
  inb_S1x4096x64_S1x1024x64_0_1024_0 : ∀ a, (![0, 1024, 0] : Fin 3 → Nat) a + S1x1024x64.size a ≤ S1x4096x64.size a
  inb_S1x512x4096_S1x512x1024_0_0_2048 : ∀ a, (![0, 0, 2048] : Fin 3 → Nat) a + S1x512x1024.size a ≤ S1x512x4096.size a
  inb_S1x4096x64_S1x1024x64_0_2048_0 : ∀ a, (![0, 2048, 0] : Fin 3 → Nat) a + S1x1024x64.size a ≤ S1x4096x64.size a
  inb_S1x512x4096_S1x512x1024_0_0_3072 : ∀ a, (![0, 0, 3072] : Fin 3 → Nat) a + S1x512x1024.size a ≤ S1x512x4096.size a
  inb_S1x4096x64_S1x1024x64_0_3072_0 : ∀ a, (![0, 3072, 0] : Fin 3 → Nat) a + S1x1024x64.size a ≤ S1x4096x64.size a
  inb_S1x512x64_S1x512x64_0_0_0 : ∀ a, (![0, 0, 0] : Fin 3 → Nat) a + S1x512x64.size a ≤ S1x512x64.size a
  shapeCasts_S512x64_S1x512x64 : S512x64.ShapeCasts S1x512x64
  transposes_S8x4096x64_S8x64x4096_0_2_1 : S8x4096x64.Transposes [0, 2, 1] S8x64x4096
  shapeCasts_S8x64x4096_S8x64x64x64 : S8x64x4096.ShapeCasts S8x64x64x64
  dot_S512x64_S64x4096_S512x4096_1_0_0_1_n_n_wf : DotDims.WF S512x64 S64x4096 S512x4096 [1] [0] [0] [1] [] []
  dot_S512x1024_S1024x64_S512x64_1_0_0_1_n_n_wf : DotDims.WF S512x1024 S1024x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x64.size a ≤ S1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S8x64x4096.size a
  hwx0_0 : ∀ i : grid0.Coords, EltTy.bits .bf16 = 32 ∨ (Rect.block (s := S8x64x4096) S1x64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .bf16 = 32 ∨ (Rect.block (s := S8x4096x64) S1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x4096x64.size a
  hwx0_2 : ∀ i : grid0.Coords, EltTy.bits .f32 = 32 ∨ (Rect.block (s := S8x4096x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S8x4096x4096.size a
  hwx0_3 : ∀ i : grid0.Coords, EltTy.bits .f32 = 32 ∨ (Rect.block (s := S8x4096x4096) S1x512x4096.size (cc0_transform_3 i) (hinb0_3 i)).WholeWords (EltTy.packing .f32)

variable [Facts₀]

def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v2) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x64x64 : Shape := ⟨4, ![8, 64, 64, 64]⟩
abbrev S8x64x4096 : Shape := ⟨3, ![8, 64, 4096]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S8x64x4096, .f32⟩
  | .hbm, ⟨2, _⟩ => ⟨S8x4096x64, .f32⟩
  | .hbm, ⟨3, _⟩ => ⟨S8x4096x4096, .f32⟩
  | .hbm, ⟨4, _⟩ => ⟨S_, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S8x4096x1, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x4096x64, .f32⟩
  | .hbm, ⟨19, _⟩ => ⟨S8x64x4096, .f32⟩
  | .hbm, ⟨20, _⟩ => ⟨S8x64x64x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  shapeCasts_S8x64x64x64_S8x64x4096 : S8x64x64x64.ShapeCasts S8x64x4096
  transposes_S8x64x4096_S8x4096x64_0_2_1 : S8x64x4096.Transposes [0, 2, 1] S8x4096x64
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x64_S8x64x4096_0_2_1 : S8x4096x64.Transposes [0, 2, 1] S8x64x4096
  shapeCasts_S8x64x4096_S8x64x64x64 : S8x64x4096.ShapeCasts S8x64x64x64
  dot_S8x4096x64_S8x64x4096_S8x4096x4096_2_1_1_2_0_0_wf : DotDims.WF S8x4096x64 S8x64x4096 S8x4096x4096 [2] [1] [1] [2] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x64x4096_S8x4096x4096_2_1_1_2_0_0 : DotDims S8x4096x64 S8x64x4096 S8x4096x4096 where
  lhsContracting := [2]
  rhsContracting := [1]
  lhsNonContracting := [1]
  rhsNonContracting := [2]
  lhsBatch := [0]
  rhsBatch := [0]
  wf := dot_S8x4096x64_S8x64x4096_S8x4096x4096_2_1_1_2_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Spec.lean ====
/-
  Spatial self-attention, one query row at a time, on the extended reals.

  A query row `q : Fin 64 → EReal` (one spatial position's 64 channels) is scored against the 4096 key
  columns `K c m`:  `score q K m = ∑ c, q c * K c m`.  The row's softmax subtracts the row maximum, exponentiates,
  and normalises by the row's sum of exponentials.  Two spellings of the normalisation occur: the product with the
  reciprocal of the sum, `e m * (1 / ℓ)`, and the quotient `e m / ℓ`.  On the extended reals they agree whenever
  `ℓ ≠ 0`; and `ℓ` is positive as soon as every score is a real number: the maximum of the row is then a real, so
  every exponent (a score minus the maximum) is a real, so every exponential is a positive real, and the sum of the
  exponentials is positive.  With an infinite score
  the two spellings really differ (`0 * ⊤ = 0` against `0 / 0 = ⊥`), which is why the scores' finiteness is a hypothesis.

  The attention row then weighs the 4096 value entries `V m`:  `ctx A V = ∑ m, A m * V m`.  A sum over 4096 positions
  is the sum of its four consecutive quarters of 1024, added left to right from zero: associativity and commutativity
  of the extended reals' addition, nothing more.
-/
import Idealize.ShloMosaic.PureOps.Ideal
import Idealize.ShloMosaic.PureOps.Ideal.Laws

noncomputable section

open scoped BigOperators

namespace Cert.Attn

open Idealize.ShloMosaic

/-- An extended real that is a real number. -/
def IsReal (x : EReal) : Prop := ∃ r : ℝ, x = (r : EReal)

/-- The scores of one query row against every key column. -/
def score (q : Fin 64 → EReal) (K : Fin 64 → Fin 4096 → EReal) (m : Fin 4096) : EReal :=
  ∑ c : Fin 64, q c * K c m

/-- The maximum of a row of scores, folded from `-∞`. -/
def rowMax (s : Fin 4096 → EReal) : EReal := (Finset.univ : Finset (Fin 4096)).fold max ⊥ s

/-- The exponential of a score's distance below the row maximum. -/
def expo (s : Fin 4096 → EReal) (m : Fin 4096) : EReal := Ideal.exp (s m - rowMax s)

/-- The row's sum of exponentials. -/
def denom (s : Fin 4096 → EReal) : EReal := ∑ k : Fin 4096, expo s k

/-- The softmax entry as the product with the reciprocal of the sum. -/
def attnMul (s : Fin 4096 → EReal) (m : Fin 4096) : EReal := expo s m * Ideal.div 1 (denom s)

/-- The softmax entry as the quotient by the sum. -/
def attnDiv (s : Fin 4096 → EReal) (m : Fin 4096) : EReal := Ideal.div (expo s m) (denom s)

/-- A product of two reals is a real. -/
private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A sum of two reals is a real. -/
private theorem isReal_add {x y : EReal} (hx : IsReal x) (hy : IsReal y) : IsReal (x + y) := by
  obtain ⟨a, rfl⟩ := hx
  obtain ⟨b, rfl⟩ := hy
  exact ⟨a + b, (EReal.coe_add a b).symm⟩

/-- A score of real queries against real keys is a real. -/
theorem isReal_score (q : Fin 64 → EReal) (K : Fin 64 → Fin 4096 → EReal) (hq : ∀ c, IsReal (q c))
    (hK : ∀ c m, IsReal (K c m)) (m : Fin 4096) : IsReal (score q K m) := by
  unfold score
  exact Finset.sum_induction _ IsReal (fun _ _ => isReal_add) ⟨0, EReal.coe_zero.symm⟩
    (fun c _ => isReal_mul (hq c) (hK c m))

/-- The maximum of a row of real scores is a real. -/
private theorem isReal_rowMax (s : Fin 4096 → EReal) (hs : ∀ m, IsReal (s m)) : IsReal (rowMax s) := by
  have hlt : rowMax s < ⊤ := by
    unfold rowMax
    rw [Finset.fold_max_lt]
    refine ⟨bot_lt_top, fun x _ => ?_⟩
    obtain ⟨a, ha⟩ := hs x
    rw [ha]
    exact EReal.coe_lt_top a
  have hgt : ⊥ < rowMax s := by
    unfold rowMax
    rw [Finset.lt_fold_max]
    refine Or.inr ⟨0, Finset.mem_univ _, ?_⟩
    obtain ⟨a, ha⟩ := hs 0
    rw [ha]
    exact EReal.bot_lt_coe a
  exact ⟨(rowMax s).toReal, (EReal.coe_toReal hlt.ne hgt.ne').symm⟩

/-- On a row of real scores every exponential is positive. -/
private theorem expo_pos (s : Fin 4096 → EReal) (hs : ∀ m, IsReal (s m)) (k : Fin 4096) : 0 < expo s k := by
  obtain ⟨r, hr⟩ := isReal_rowMax s hs
  obtain ⟨a, ha⟩ := hs k
  unfold expo
  rw [hr, ha, ← EReal.coe_sub, Ideal.exp_coe]
  exact_mod_cast Real.exp_pos (a - r)

/-- On a row of real scores the sum of exponentials is positive. -/
private theorem denom_pos (s : Fin 4096 → EReal) (hs : ∀ m, IsReal (s m)) : 0 < denom s := by
  unfold denom
  exact lt_of_lt_of_le (expo_pos s hs 0)
    (Finset.single_le_sum (f := expo s) (fun k _ => (expo_pos s hs k).le) (Finset.mem_univ 0))

/-- On a row of real scores the two spellings of the softmax entry agree. -/
theorem attnMul_eq_attnDiv (s : Fin 4096 → EReal) (hs : ∀ m, IsReal (s m)) (m : Fin 4096) :
    attnMul s m = attnDiv s m := by
  have h : denom s ≠ 0 := (denom_pos s hs).ne'
  unfold attnMul attnDiv Ideal.div
  rw [if_neg h, if_neg h, one_mul]

/-- Position `k` of the quarter that starts at `o`. -/
def shift (o : ℕ) (h : o + 1024 ≤ 4096) (k : Fin 1024) : Fin 4096 := ⟨o + k.val, by omega⟩

/-- An attention row applied to a column of values. -/
def ctx (A V : Fin 4096 → EReal) : EReal := ∑ m : Fin 4096, A m * V m

/-- Four quarter products added left to right from zero. -/
def ctx4 (A0 A1 A2 A3 V0 V1 V2 V3 : Fin 1024 → EReal) : EReal :=
  (((0 + ∑ k : Fin 1024, A0 k * V0 k) + ∑ k : Fin 1024, A1 k * V1 k) + ∑ k : Fin 1024, A2 k * V2 k)
    + ∑ k : Fin 1024, A3 k * V3 k

/-- A sum over 4096 positions is the sum of the sums over its four consecutive quarters. -/
private theorem sum_quarters (f : Fin 4096 → EReal) :
    ∑ m : Fin 4096, f m
      = (((0 + ∑ k : Fin 1024, f (shift 0 (by omega) k)) + ∑ k : Fin 1024, f (shift 1024 (by omega) k))
          + ∑ k : Fin 1024, f (shift 2048 (by omega) k)) + ∑ k : Fin 1024, f (shift 3072 (by omega) k) := by
  have e1 : ∑ m : Fin 4096, f m
      = ∑ i : Fin 1024, f (Fin.castAdd 3072 i) + ∑ i : Fin 3072, f (Fin.natAdd 1024 i) :=
    Fin.sum_univ_add (a := 1024) (b := 3072) f
  have e2 : ∑ i : Fin 3072, f (Fin.natAdd 1024 i)
      = ∑ i : Fin 1024, f (Fin.natAdd 1024 (Fin.castAdd 2048 i))
        + ∑ i : Fin 2048, f (Fin.natAdd 1024 (Fin.natAdd 1024 i)) :=
    Fin.sum_univ_add (a := 1024) (b := 2048) (fun i => f (Fin.natAdd 1024 i))
  have e3 : ∑ i : Fin 2048, f (Fin.natAdd 1024 (Fin.natAdd 1024 i))
      = ∑ i : Fin 1024, f (Fin.natAdd 1024 (Fin.natAdd 1024 (Fin.castAdd 1024 i)))
        + ∑ i : Fin 1024, f (Fin.natAdd 1024 (Fin.natAdd 1024 (Fin.natAdd 1024 i))) :=
    Fin.sum_univ_add (a := 1024) (b := 1024) (fun i => f (Fin.natAdd 1024 (Fin.natAdd 1024 i)))
  have i0 : ∀ k : Fin 1024, (Fin.castAdd 3072 k : Fin 4096) = shift 0 (by omega) k := fun k =>
    Fin.ext (by simp [shift])
  have i1 : ∀ k : Fin 1024, (Fin.natAdd 1024 (Fin.castAdd 2048 k) : Fin 4096) = shift 1024 (by omega) k := fun k =>
    Fin.ext (by simp [shift])
  have i2 : ∀ k : Fin 1024,
      (Fin.natAdd 1024 (Fin.natAdd 1024 (Fin.castAdd 1024 k)) : Fin 4096) = shift 2048 (by omega) k := fun k =>
    Fin.ext (by simp [shift]; omega)
  have i3 : ∀ k : Fin 1024,
      (Fin.natAdd 1024 (Fin.natAdd 1024 (Fin.natAdd 1024 k)) : Fin 4096) = shift 3072 (by omega) k := fun k =>
    Fin.ext (by simp [shift]; omega)
  rw [e1, e2, e3]
  simp only [i0, i1, i2, i3]
  simp only [zero_add, add_assoc]

/-- The four quarters of a row make up the row. -/
theorem ctx4_eq_ctx (A V : Fin 4096 → EReal) :
    ctx4 (fun k => A (shift 0 (by omega) k)) (fun k => A (shift 1024 (by omega) k)) (fun k => A (shift 2048 (by omega) k))
        (fun k => A (shift 3072 (by omega) k))
      (fun k => V (shift 0 (by omega) k)) (fun k => V (shift 1024 (by omega) k)) (fun k => V (shift 2048 (by omega) k))
        (fun k => V (shift 3072 (by omega) k))
      = ctx A V := by
  unfold ctx4 ctx
  exact (sum_quarters (fun m => A m * V m)).symm

/-- The bit patterns of `-∞` and of `1`. -/
theorem ofBits_neg_inf : Ideal.ofBits .f32 0xFF800000#32 = ⊥ := by
  simp [Ideal.ofBits, Ideal.ieee]
theorem ofBits_one : Ideal.ofBits .f32 0x3F800000#32 = 1 := by
  simp [Ideal.ofBits, Ideal.ieee, -EReal.coe_mul]
  norm_num

end Cert.Attn

end
-- ==== Proof.Finite.lean ====
/-
  What the precondition says of the input, one element at a time.
-/
import proofs.«413481_j28424093564998_3_alg».proof.Pre_finite_inputs
import proofs.«413481_j28424093564998_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- Where the finiteness predicate is all ones, every entry of the input is a real number. -/
theorem real_of_pre (x : FVec Ideal S8x64x64x64 .f32) (h : Cert.Pre_finite_inputs.fn (F := Ideal) x = fun _ => 1#1)
    (i : S8x64x64x64.Idx) : ∃ r : ℝ, x i = (r : EReal) := by
  haveI : Subsingleton S_.Idx := ⟨fun a b => funext fun d => d.elim0⟩
  have h0 := congrFun h ValueIdx.ix0
  dsimp only [Cert.Pre_finite_inputs.fn] at h0
  have hi := Host.reduce_andi_all _ _ _ _ _ h0 i
  -- the comparison at the entry i: |x i| < +∞
  change Ideal.cmp .olt (max (x i) (-(x i))) (Ideal.ofBits .f32 0x7F800000#32) = 1#1 at hi
  have htop : Ideal.ofBits .f32 0x7F800000#32 = (⊤ : EReal) := by
    simp [Ideal.ofBits, Ideal.ieee]
  rw [htop] at hi
  have hlt : max (x i) (-(x i)) < (⊤ : EReal) := by
    by_contra hn
    simp [Ideal.cmp, hn] at hi
  -- neither infinity: an infinite entry makes max (x i) (-(x i)) = +∞
  have hne_top : x i ≠ (⊤ : EReal) := by
    intro ht
    rw [ht] at hlt
    simp at hlt
  have hne_bot : x i ≠ (⊥ : EReal) := by
    intro hb
    rw [hb] at hlt
    simp at hlt
  exact ⟨(x i).toReal, (EReal.coe_toReal hne_top hne_bot).symm⟩

end Cert.Pre_finite_inputs.Finite

end
-- ==== Proof.RefValue.lean ====
/-
  The reference's stages read one element at a time.
-/
import proofs.«413481_j28424093564998_3_alg».proof.Proof.Gen.ReferenceIdeal.Read
import proofs.«413481_j28424093564998_3_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The input with its two spatial axes merged: batch `b`, channel `c`, position `n`. -/
def X (x : (⟨S8x64x64x64, .f32⟩ : BufTy).Contents (Elt Ideal)) (b : Fin 8) (c : Fin 64) (n : Fin 4096) : EReal :=
  val_main_v0 (F := Ideal) x (ix3 b c n)

/-- The scores: entry (b, n, m) is the score of position `n` against position `m` of batch `b`. -/
private theorem scores_apply (x : (⟨S8x64x64x64, .f32⟩ : BufTy).Contents (Elt Ideal)) (b : Fin 8) (n m : Fin 4096) :
    val_main_v2 (F := Ideal) x (ix3 b n m)
      = score (fun c => X x b c n) (fun c m' => X x b c m') m := by
  rw [val_main_v2_apply]
  unfold score X
  refine Finset.sum_congr rfl fun k _ => ?_
  rw [val_main_v1_apply]
  have e1 : idx_main_v1 (lidx_main_v2 (ix3 b n m) k) = ix3 b k n :=
    funext fun a => Fin.ext (by match a with | ⟨0, _⟩ => rfl | ⟨1, _⟩ => rfl | ⟨2, _⟩ => rfl)
  have e2 : ridx_main_v2 (ix3 b n m) k = ix3 b k m :=
    funext fun a => Fin.ext (by match a with | ⟨0, _⟩ => rfl | ⟨1, _⟩ => rfl | ⟨2, _⟩ => rfl)
  rw [e1, e2]

/-- The reduced index (b, n) with position `k` put back on the last axis is (b, n, k). -/
private theorem lift_ix3 (h : S8x4096x4096.Reduces [2] S8x4096) (b : Fin 8) (n : Fin 4096)
    (k : Fin (S8x4096x4096.size 2)) : h.lift (ix2 b n) k = ix3 b n (⟨k.val, k.isLt⟩ : Fin 4096) := by
  funext c; apply Fin.ext
  match c with | ⟨0, _⟩ => rfl | ⟨1, _⟩ => rfl | ⟨2, _⟩ => rfl

/-- The maximum over the last axis, folded from `-∞`: entry (b, n) is the maximum of the scores of position `n`. -/
private theorem v3_apply (x : (⟨S8x64x64x64, .f32⟩ : BufTy).Contents (Elt Ideal)) (b : Fin 8) (n : Fin 4096) :
    val_main_v3 (F := Ideal) x (ix2 b n)
      = rowMax (score (fun c => X x b c n) (fun c m' => X x b c m')) := by
  have h : S8x4096x4096.Reduces [2] S8x4096 := by decide
  unfold val_main_v3
  rw [Host.reduce_eq_fold_single FloatOps.maximumf _ _ reducesTo_S8x4096x4096_S8x4096_d2 h h_S_]
  have hf : (val_main_v2 (F := Ideal) x ∘ h.lift (ix2 b n))
      = fun k : Fin 4096 => score (fun c => X x b c n) (fun c m' => X x b c m') k := funext fun k => by
    show val_main_v2 (F := Ideal) x (h.lift (ix2 b n) k) = _
    rw [lift_ix3, scores_apply]
    rfl
  refine Eq.trans (congrArg (fun f => Finset.fold max (Ideal.ofBits .f32 0xFF800000#32) f (Finset.univ : Finset (Fin 4096))) hf) ?_
  rw [ofBits_neg_inf]
  rfl

/-- The row maxima, after the maximum with the broadcast `-∞`: entry (b, n) is still the maximum of the scores of position `n`. -/
private theorem rowMax_apply (x : (⟨S8x64x64x64, .f32⟩ : BufTy).Contents (Elt Ideal)) (b : Fin 8) (n : Fin 4096) :
    val_main_v5 (F := Ideal) x (ix2 b n)
      = rowMax (score (fun c => X x b c n) (fun c m' => X x b c m')) := by
  rw [val_main_v5_apply, val_main_v4_apply, val_main_cst_0_apply, v3_apply, Ideal.ofBits_def, ofBits_neg_inf, Ideal.maximumf_def]
  exact max_eq_right bot_le

/-- The exponentials: entry (b, n, m) is the exponential of the score's distance below its row's maximum. -/
private theorem expo_apply (x : (⟨S8x64x64x64, .f32⟩ : BufTy).Contents (Elt Ideal)) (b : Fin 8) (n m : Fin 4096) :
    val_main_v9 (F := Ideal) x (ix3 b n m)
      = expo (score (fun c => X x b c n) (fun c m' => X x b c m')) m := by
  rw [val_main_v9_apply, val_main_v8_apply, val_main_v7_apply, val_main_v6_apply, scores_apply]
  have e : idx_main_v6 (idx_main_v7 (ix3 b n m)) = ix2 b n :=
    funext fun a => Fin.ext (by match a with | ⟨0, _⟩ => rfl | ⟨1, _⟩ => rfl)
  rw [e, rowMax_apply, Ideal.hostUnary_exp_def, Ideal.subf_def]
  rfl

/-- The row sums: entry (b, n) is the sum of the exponentials of row `n`. -/
private theorem denom_apply (x : (⟨S8x64x64x64, .f32⟩ : BufTy).Contents (Elt Ideal)) (b : Fin 8) (n : Fin 4096) :
    val_main_v10 (F := Ideal) x (ix2 b n)
      = denom (score (fun c => X x b c n) (fun c m' => X x b c m')) := by
  rw [val_main_v10_apply, val_main_cst_1_apply, Ideal.ofBits_def, Ideal.ofBits_zero_f32, zero_add]
  unfold denom
  refine Finset.sum_congr rfl fun k _ => ?_
  have e : idx_main_v10 (ix2 b n) k = ix3 b n k :=
    funext fun a => Fin.ext (by match a with | ⟨0, _⟩ => rfl | ⟨1, _⟩ => rfl | ⟨2, _⟩ => rfl)
  rw [e, expo_apply]

/-- The reference's attention weights: entry (b, n, m) is the softmax entry (quotient spelling) of the scores of
    position `n` against every position of batch `b`. -/
theorem ref_attn_apply (x : (⟨S8x64x64x64, .f32⟩ : BufTy).Contents (Elt Ideal)) (b : Fin 8) (n m : Fin 4096) :
    val_main_v13 (F := Ideal) x (ix3 b n m)
      = attnDiv (score (fun c => X x b c n) (fun c m' => X x b c m')) m := by
  rw [val_main_v13_apply, val_main_v12_apply, val_main_v11_apply, expo_apply]
  have e : idx_main_v11 (idx_main_v12 (ix3 b n m)) = ix2 b n :=
    funext fun a => Fin.ext (by match a with | ⟨0, _⟩ => rfl | ⟨1, _⟩ => rfl)
  rw [e, denom_apply, Ideal.hostDivf_def]
  rfl

/-- The reference's attended values: entry (b, n, c) is row (b, n) of its attention weights applied to channel `c`. -/
theorem ref_ctx_apply (x : (⟨S8x64x64x64, .f32⟩ : BufTy).Contents (Elt Ideal)) (b : Fin 8) (n : Fin 4096) (c : Fin 64) :
    val_main_v14 (F := Ideal) x (ix3 b n c)
      = ctx (fun m => val_main_v13 (F := Ideal) x (ix3 b n m)) (fun m => X x b c m) := by
  rw [val_main_v14_apply]
  unfold ctx X
  refine Finset.sum_congr rfl fun k _ => ?_
  have e1 : lidx_main_v14 (ix3 b n c) k = ix3 b n k :=
    funext fun a => Fin.ext (by match a with | ⟨0, _⟩ => rfl | ⟨1, _⟩ => rfl | ⟨2, _⟩ => rfl)
  have e2 : idx_main_v1 (ridx_main_v14 (ix3 b n c) k) = ix3 b c k :=
    funext fun a => Fin.ext (by match a with | ⟨0, _⟩ => rfl | ⟨1, _⟩ => rfl | ⟨2, _⟩ => rfl)
  rw [e1, val_main_v1_apply, e2]

end Cert.ReferenceIdeal.RefValue

end
-- ==== Proof.KernelBlocks.lean ====
/-
  What one grid point leaves in its two output blocks, as terms of the point's two input blocks.

  The body stores the whole attention block first — the softmax of the point's 512 query rows against the batch's keys —
  and then reads that block back from its own output buffer, a quarter of the key axis at a time, to multiply each quarter
  with the matching quarter of the value rows.  A read-back of a rectangle of a buffer that one store has just filled is
  that store's payload at the rectangle's positions, so the second output block is a term of the first.
-/
import proofs.«413481_j28424093564998_3_alg».proof.Proof.Gen.KernelIdeal.Frame
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.Sem

variable {F : FTy → Type} [FloatOps F]

theorem hz3 : (![0, 0, 0] : Fin 3 → Nat) = fun _ => 0 := by
  funext a; match a with | ⟨0, _⟩ => rfl | ⟨1, _⟩ => rfl | ⟨2, _⟩ => rfl

/-- The 512 query rows of the point inside the batch's 4096 value rows. -/
abbrev qRect (i : grid0.Coords) : Rect S1x4096x64 := Rect.unit (s := S1x4096x64) (k0_off1 i) S1x512x64.size (k0_off1_inb i)

/-- The four quarters of the attention block along the key axis. -/
abbrev aRect0 : Rect S1x512x4096 := Rect.unit (s := S1x512x4096) ![0, 0, 0] S1x512x1024.size inb_S1x512x4096_S1x512x1024_0_0_0
abbrev aRect1 : Rect S1x512x4096 := Rect.unit (s := S1x512x4096) ![0, 0, 1024] S1x512x1024.size inb_S1x512x4096_S1x512x1024_0_0_1024
abbrev aRect2 : Rect S1x512x4096 := Rect.unit (s := S1x512x4096) ![0, 0, 2048] S1x512x1024.size inb_S1x512x4096_S1x512x1024_0_0_2048
abbrev aRect3 : Rect S1x512x4096 := Rect.unit (s := S1x512x4096) ![0, 0, 3072] S1x512x1024.size inb_S1x512x4096_S1x512x1024_0_0_3072

/-- The four quarters of the value rows. -/
abbrev vRect0 : Rect S1x4096x64 := Rect.unit (s := S1x4096x64) ![0, 0, 0] S1x1024x64.size inb_S1x4096x64_S1x1024x64_0_0_0
abbrev vRect1 : Rect S1x4096x64 := Rect.unit (s := S1x4096x64) ![0, 1024, 0] S1x1024x64.size inb_S1x4096x64_S1x1024x64_0_1024_0
abbrev vRect2 : Rect S1x4096x64 := Rect.unit (s := S1x4096x64) ![0, 2048, 0] S1x1024x64.size inb_S1x4096x64_S1x1024x64_0_2048_0
abbrev vRect3 : Rect S1x4096x64 := Rect.unit (s := S1x4096x64) ![0, 3072, 0] S1x1024x64.size inb_S1x4096x64_S1x1024x64_0_3072_0

/-- The attention block of a point: the body's softmax payload of the key block and the point's query rows. -/
def attnBlock (i : grid0.Coords) (x0 : Vec F S1x64x4096 .bf16) (x1 : Vec F S1x4096x64 .bf16) : Vec F S1x512x4096 .f32 :=
  k0_pay2 x0 (View.ld x1 (qRect i))

/-- The output block of a point: the four quarter products over the attention block read back. -/
def ctxBlock (i : grid0.Coords) (x0 : Vec F S1x64x4096 .bf16) (x1 : Vec F S1x4096x64 .bf16) : Vec F S1x512x64 .f32 :=
  k0_pay1 (k0_pay3 (View.ld (attnBlock i x0 x1) aRect0) (View.ld x1 vRect0)) (k0_pay4 (View.ld (attnBlock i x0 x1) aRect1))
    (View.ld x1 vRect1) (View.ld (attnBlock i x0 x1) aRect2) (View.ld x1 vRect2) (View.ld (attnBlock i x0 x1) aRect3) (View.ld x1 vRect3)

/-- The attention output's buffer ends holding the attention block. -/
theorem out3_eq (c : Dev nD) (i : grid0.Coords) (arg2 : Memref sig .tc .vmem S1x64x4096 .bf16) (harg2 : arg2.IsWhole) (arg3 : Memref sig .tc .vmem S1x4096x64 .bf16) (harg3 : arg3.IsWhole) (arg4 : Memref sig .tc .vmem S1x512x64 .f32) (harg4 : arg4.IsWhole) (arg5 : Memref sig .tc .vmem S1x512x4096 .f32) (harg5 : arg5.IsWhole)
    (x0 : Vec F S1x64x4096 .bf16) (x1 : Vec F S1x4096x64 .bf16) :
    out0_A_3 c i arg2 harg2 arg3 harg3 arg4 harg4 arg5 harg5 x0 x1 = attnBlock i x0 x1 := by
  unfold out0_A_3 attnBlock
  rw [View.read_writes_eq_canon _ _ _ (cover0_A_3 c i arg2 harg2 arg3 harg3 arg4 harg4 arg5 harg5 x0 x1)]
  unfold kernelRun0_A
  dsimp only
  sl_unfold_run_names
  rw [View.canon_unit_zero hz3]
  simp only [View.readAt_eq_ld, harg2.read_unread, harg3.read_unread, View.ld_unit_zero (S := S1x64x4096) hz3]

/-- The other output's buffer ends holding the four quarter products. -/
theorem out2_eq (c : Dev nD) (i : grid0.Coords) (arg2 : Memref sig .tc .vmem S1x64x4096 .bf16) (harg2 : arg2.IsWhole) (arg3 : Memref sig .tc .vmem S1x4096x64 .bf16) (harg3 : arg3.IsWhole) (arg4 : Memref sig .tc .vmem S1x512x64 .f32) (harg4 : arg4.IsWhole) (arg5 : Memref sig .tc .vmem S1x512x4096 .f32) (harg5 : arg5.IsWhole)
    (x0 : Vec F S1x64x4096 .bf16) (x1 : Vec F S1x4096x64 .bf16) :
    out0_A_2 c i arg2 harg2 arg3 harg3 arg4 harg4 arg5 harg5 x0 x1 = ctxBlock i x0 x1 := by
  unfold out0_A_2 ctxBlock attnBlock
  rw [View.read_writes_eq_canon _ _ _ (cover0_A_2 c i arg2 harg2 arg3 harg3 arg4 harg4 arg5 harg5 x0 x1)]
  unfold kernelRun0_A
  dsimp only
  sl_unfold_run_names
  rw [View.canon_unit_zero hz3]
  simp only [View.readCov_eq_canon', View.canon_unit_zero (S := S1x512x4096) hz3, View.readAt_eq_ld, harg2.read_unread,
    harg3.read_unread, View.ld_unit_zero (S := S1x64x4096) hz3]

end Cert.KernelIdeal.Blocks

end
-- ==== Proof.KernelPay.lean ====
/-
  The kernel body's arithmetic read one element at a time.
-/
import proofs.«413481_j28424093564998_3_alg».proof.Proof.Gen.KernelIdeal.Skeleton
import proofs.«413481_j28424093564998_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.Attn

/-! ### The two products of the kernel read at an index -/

private theorem lhsQK_0 (i : S512x4096.Idx) (q : dot_S512x64_S64x4096_S512x4096_1_0_0_1_n_n.contr.Idx) :
    (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide),
    dif_pos (show (0 : Fin S512x64.rank) ∈ dot_S512x64_S64x4096_S512x4096_1_0_0_1_n_n.lhsNonContracting by decide)]
  rfl
private theorem lhsQK_1 (i : S512x4096.Idx) (q : dot_S512x64_S64x4096_S512x4096_1_0_0_1_n_n.contr.Idx) :
    (dot_S512x64_S64x4096_S512x4096_1_0_0_1_n_n.lhsIdx i q 1).val = (q ⟨0, by decide⟩).val :=
  dot_S512x64_S64x4096_S512x4096_1_0_0_1_n_n.lhsIdx_val_of_single rfl i q
private theorem rhsQK_0 (i : S512x4096.Idx) (q : dot_S512x64_S64x4096_S512x4096_1_0_0_1_n_n.contr.Idx) :
    (dot_S512x64_S64x4096_S512x4096_1_0_0_1_n_n.rhsIdx i q 0).val = (q ⟨0, by decide⟩).val :=
  dot_S512x64_S64x4096_S512x4096_1_0_0_1_n_n.rhsIdx_val_of_single rfl i q
private theorem rhsQK_1 (i : S512x4096.Idx) (q : dot_S512x64_S64x4096_S512x4096_1_0_0_1_n_n.contr.Idx) :
    (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide),
    dif_pos (show (1 : Fin S64x4096.rank) ∈ dot_S512x64_S64x4096_S512x4096_1_0_0_1_n_n.rhsNonContracting by decide)]
  rfl

/-- The product of a 512 by 64 block with a 64 by 4096 block, accumulated into zero: entry (r, m) is the sum over
    the 64 channels of the products. -/
private theorem matmulQK_apply (A : FVec Ideal S512x64 .bf16) (B : FVec Ideal S64x4096 .bf16) (r : Fin 512) (m : Fin 4096) :
    matmul dot_S512x64_S64x4096_S512x4096_1_0_0_1_n_n none A B (constant (F := Ideal) S512x4096 .f32 0x00000000#32) (ix2 r m)
      = ∑ c : Fin 64, A (ix2 r c) * B (ix2 c m) := by
  simp only [matmul]
  rw [Ideal.matmul_constant_zero_apply,
    ← Equiv.sum_comp (contrEquiv1 dot_S512x64_S64x4096_S512x4096_1_0_0_1_n_n 64 rfl rfl).symm]
  refine Finset.sum_congr rfl fun k _ => ?_
  have hk := contrEquiv1_symm_val dot_S512x64_S64x4096_S512x4096_1_0_0_1_n_n 64 rfl rfl k
  have el : dot_S512x64_S64x4096_S512x4096_1_0_0_1_n_n.lhsIdx (ix2 r m)
      ((contrEquiv1 dot_S512x64_S64x4096_S512x4096_1_0_0_1_n_n 64 rfl rfl).symm k) = ix2 r k :=
    funext fun a => Fin.ext (by
      match a with
      | ⟨0, _⟩ => exact lhsQK_0 _ _
      | ⟨1, _⟩ => exact (lhsQK_1 _ _).trans hk)
  have er : dot_S512x64_S64x4096_S512x4096_1_0_0_1_n_n.rhsIdx (ix2 r m)
      ((contrEquiv1 dot_S512x64_S64x4096_S512x4096_1_0_0_1_n_n 64 rfl rfl).symm k) = ix2 k m :=
    funext fun a => Fin.ext (by
      match a with
      | ⟨0, _⟩ => exact (rhsQK_0 _ _).trans hk
      | ⟨1, _⟩ => exact rhsQK_1 _ _)
  rw [el, er]

/-! ### The column forms of a cast and a broadcast -/

/-- A length-512 vector cast to a 512 by 1 column reads, at (r, u), the vector at r. -/
private theorem colCast_apply {α : Type} (x : S512.Idx → α) (r : Fin 512) (u : Fin 1) :
    shapeCast S512x1 x shapeCasts_S512_S512x1 (ix2 r u) = x (ix1 r) :=
  shapeCast_apply x shapeCasts_S512_S512x1 _ _ (by
    have hu : u.val = 0 := by omega
    rw [Shape.rowMajor_val_one, Shape.rowMajor_val_two]
    show r.val = r.val * 1 + u.val
    rw [hu, Nat.mul_one, Nat.add_zero])

/-- A 512 by 1 column broadcast over 4096 columns reads, at (r, m), the column at r. -/
private theorem colBroadcast_apply {α : Type} (x : S512x1.Idx → α) (r : Fin 512) (m : Fin 4096) :
    broadcastTo S512x4096 x broadcasts_S512x1_S512x4096 (ix2 r m) = x (ix2 r (0 : Fin 1)) := by
  refine broadcastTo_apply x broadcasts_S512x1_S512x4096 (ix2 r m) (ix2 r (0 : Fin 1)) fun ax => ?_
  match ax with
  | ⟨0, _⟩ => rfl
  | ⟨1, _⟩ => rfl

/-! ### The two reductions along a row -/

/-- The maximum along row r of a 512 by 4096 block, folded from minus infinity. -/
private theorem rowMaxRed_apply (X : FVec Ideal S512x4096 .f32) (hφ : FKind.Formats .f32)
    (hacc : (0xFF800000#32 : BitVec 32) = 0xFF800000#32) (r : Fin 512) :
    multiReduction .maximumf [1] S512 X 0xFF800000#32 reduces_S512x4096_S512 hφ hacc (ix1 r)
      = (Finset.univ : Finset (Fin 4096)).fold max ⊥ (fun m => X (ix2 r m)) := by
  refine (Ideal.multiReduction_maximumf_single X 0xFF800000#32 reduces_S512x4096_S512 hφ hacc (ix1 r)).trans ?_
  show (Finset.univ : Finset (Fin 4096)).fold max (Ideal.ofBits .f32 0xFF800000#32) _ = _
  rw [ofBits_neg_inf]
  refine congrArg (fun f : Fin 4096 → EReal => (Finset.univ : Finset (Fin 4096)).fold max ⊥ f) (funext fun m => ?_)
  show X (reduces_S512x4096_S512.lift (ix1 r) m) = X (ix2 r m)
  refine congrArg X (funext fun a => Fin.ext ?_)
  match a with
  | ⟨0, _⟩ => rfl
  | ⟨1, _⟩ => rfl

/-- The sum along row r of a 512 by 4096 block. -/
private theorem rowSumRed_apply (X : FVec Ideal S512x4096 .f32) (hφ : FKind.Formats .f32)
    (hacc : (0x00000000#32 : BitVec 32) = 0x00000000#32) (r : Fin 512) :
    multiReduction .add [1] S512 X 0x00000000#32 reduces_S512x4096_S512 hφ hacc (ix1 r)
      = ∑ m : Fin 4096, X (ix2 r m) := by
  refine (Ideal.multiReduction_add_single X 0x00000000#32 reduces_S512x4096_S512 hφ hacc (ix1 r)).trans ?_
  show ∑ m : Fin 4096, _ = _
  refine Finset.sum_congr rfl fun m _ => congrArg X (funext fun a => Fin.ext ?_)
  match a with
  | ⟨0, _⟩ => rfl
  | ⟨1, _⟩ => rfl

/-! ### The softmax of a score block, one entry at a time -/

/-- The block of scores: entry (r, m) is the score of query row r against key column m. -/
private theorem scoreBlock_apply (v2 : FVec Ideal S1x64x4096 .bf16) (v5 : FVec Ideal S1x512x64 .bf16) (r : Fin 512) (m : Fin 4096) :
    matmul dot_S512x64_S64x4096_S512x4096_1_0_0_1_n_n none (shapeCast S512x64 v5 shapeCasts_S1x512x64_S512x64)
        (shapeCast S64x4096 v2 shapeCasts_S1x64x4096_S64x4096) (constant (F := Ideal) S512x4096 .f32 0x00000000#32) (ix2 r m)
      = score (fun c => v5 (ix3 (0 : Fin 1) r c)) (fun c k => v2 (ix3 (0 : Fin 1) c k)) m := by
  refine (matmulQK_apply _ _ r m).trans ?_
  unfold score
  refine Finset.sum_congr rfl fun c _ => ?_
  rw [shapeCast_1ab_ab_apply, shapeCast_1ab_ab_apply]

/-- The exponential of a score block's distance below its row maxima, at (r, m). -/
private theorem expBlock_apply (S : FVec Ideal S512x4096 .f32) (hφ : FKind.Formats .f32)
    (hacc : (0xFF800000#32 : BitVec 32) = 0xFF800000#32) (r : Fin 512) (m : Fin 4096) :
    exp (subf S (broadcastTo S512x4096 (shapeCast S512x1
        (multiReduction .maximumf [1] S512 S 0xFF800000#32 reduces_S512x4096_S512 hφ hacc) shapeCasts_S512_S512x1)
        broadcasts_S512x1_S512x4096)) (ix2 r m)
      = expo (fun k => S (ix2 r k)) m := by
  show Ideal.exp (S (ix2 r m) - broadcastTo S512x4096 _ broadcasts_S512x1_S512x4096 (ix2 r m)) = _
  rw [colBroadcast_apply, colCast_apply, rowMaxRed_apply]
  rfl

/-- A block of exponentials times the broadcast reciprocals of its row sums, at (r, m). -/
private theorem normBlock_apply (E : FVec Ideal S512x4096 .f32) (hφ : FKind.Formats .f32)
    (hacc : (0x00000000#32 : BitVec 32) = 0x00000000#32) (r : Fin 512) (m : Fin 4096) :
    mulf E (broadcastTo S512x4096 (divf (broadcast S512x1 (Scalar.ofBits (F := Ideal) .f32 0x3F800000#32))
        (shapeCast S512x1 (multiReduction .add [1] S512 E 0x00000000#32 reduces_S512x4096_S512 hφ hacc) shapeCasts_S512_S512x1))
        broadcasts_S512x1_S512x4096) (ix2 r m)
      = E (ix2 r m) * Ideal.div 1 (∑ k : Fin 4096, E (ix2 r k)) := by
  rw [mulf_apply, colBroadcast_apply, divf_apply, broadcast_apply, colCast_apply, rowSumRed_apply]
  show _ * Ideal.div (Ideal.ofBits .f32 0x3F800000#32) _ = _
  rw [ofBits_one]

/-- The softmax entry of a score block at (r, m), reciprocal spelling. -/
private theorem softmaxBlock_apply (S : FVec Ideal S512x4096 .f32) (hφ : FKind.Formats .f32)
    (haccM : (0xFF800000#32 : BitVec 32) = 0xFF800000#32) (haccA : (0x00000000#32 : BitVec 32) = 0x00000000#32)
    (r : Fin 512) (m : Fin 4096) :
    mulf (exp (subf S (broadcastTo S512x4096 (shapeCast S512x1
          (multiReduction .maximumf [1] S512 S 0xFF800000#32 reduces_S512x4096_S512 hφ haccM) shapeCasts_S512_S512x1)
          broadcasts_S512x1_S512x4096)))
        (broadcastTo S512x4096 (divf (broadcast S512x1 (Scalar.ofBits (F := Ideal) .f32 0x3F800000#32))
          (shapeCast S512x1 (multiReduction .add [1] S512
            (exp (subf S (broadcastTo S512x4096 (shapeCast S512x1
              (multiReduction .maximumf [1] S512 S 0xFF800000#32 reduces_S512x4096_S512 hφ haccM) shapeCasts_S512_S512x1)
              broadcasts_S512x1_S512x4096)))
            0x00000000#32 reduces_S512x4096_S512 hφ haccA) shapeCasts_S512_S512x1))
        broadcasts_S512x1_S512x4096) (ix2 r m)
      = attnMul (fun k => S (ix2 r k)) m := by
  refine (normBlock_apply _ hφ haccA r m).trans ?_
  unfold attnMul denom
  rw [expBlock_apply S hφ haccM r m]
  refine congrArg (fun d => expo (fun k => S (ix2 r k)) m * Ideal.div 1 d) (Finset.sum_congr rfl fun k _ => ?_)
  exact expBlock_apply S hφ haccM r k

/-- The attention block a grid point stores: row `r`, column `mm` is the softmax entry (reciprocal spelling) of the
    scores of query row `r` of the loaded query rows against the loaded key block. -/
theorem pay2_apply (v2 : Vec Ideal S1x64x4096 .bf16) (v5 : Vec Ideal S1x512x64 .bf16) (r : Fin 512) (mm : Fin 4096) :
    k0_pay2 (F := Ideal) v2 v5 (ix3 (0 : Fin 1) r mm)
      = attnMul (score (fun c => v5 (ix3 (0 : Fin 1) r c)) (fun c m => v2 (ix3 (0 : Fin 1) c m))) mm := by
  unfold k0_pay2
  refine (shapeCast_ab_1ab_apply _ shapeCasts_S512x4096_S1x512x4096 (0 : Fin 1) r mm).trans ?_
  refine (softmaxBlock_apply _ _ _ _ r mm).trans ?_
  refine congrArg (fun s => attnMul s mm) (funext fun k => ?_)
  exact scoreBlock_apply v2 v5 r k

/-! ### The product of an attention quarter with a value quarter -/

private theorem lhsAV_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl
private theorem lhsAV_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
private theorem rhsAV_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
private theorem rhsAV_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The product of a 512 by 1024 block with a 1024 by 64 block, accumulated into zero: entry (r, c) is the sum over
    the 1024 positions of the products. -/
private theorem matmulAV_apply (A : FVec Ideal S512x1024 .bf16) (B : FVec Ideal S1024x64 .bf16) (r : Fin 512) (c : Fin 64) :
    matmul dot_S512x1024_S1024x64_S512x64_1_0_0_1_n_n none A B (constant (F := Ideal) S512x64 .f32 0x00000000#32) (ix2 r c)
      = ∑ k : Fin 1024, A (ix2 r k) * B (ix2 k c) := by
  simp only [matmul]
  rw [Ideal.matmul_constant_zero_apply,
    ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r c)
      ((contrEquiv1 dot_S512x1024_S1024x64_S512x64_1_0_0_1_n_n 1024 rfl rfl).symm k) = ix2 r k :=
    funext fun a => Fin.ext (by
      match a with
      | ⟨0, _⟩ => exact lhsAV_0 _ _
      | ⟨1, _⟩ => exact (lhsAV_1 _ _).trans hk)
  have er : dot_S512x1024_S1024x64_S512x64_1_0_0_1_n_n.rhsIdx (ix2 r c)
      ((contrEquiv1 dot_S512x1024_S1024x64_S512x64_1_0_0_1_n_n 1024 rfl rfl).symm k) = ix2 k c :=
    funext fun a => Fin.ext (by
      match a with
      | ⟨0, _⟩ => exact (rhsAV_0 _ _).trans hk
      | ⟨1, _⟩ => exact rhsAV_1 _ _)
  rw [el, er]

/-- One quarter's product: the loaded attention quarter, its format narrowed (no change of value), times the loaded
    value quarter, at (r, c). -/
private theorem quarter_apply (P : FVec Ideal S1x512x1024 .f32) (V : FVec Ideal S1x1024x64 .bf16)
    (h : FTy.bits .bf16 < FTy.bits .f32) (r : Fin 512) (c : Fin 64) :
    matmul dot_S512x1024_S1024x64_S512x64_1_0_0_1_n_n none
        (truncf .bf16 (shapeCast S512x1024 P shapeCasts_S1x512x1024_S512x1024) h)
        (shapeCast S1024x64 V shapeCasts_S1x1024x64_S1024x64) (constant (F := Ideal) S512x64 .f32 0x00000000#32) (ix2 r c)
      = ∑ k : Fin 1024, P (ix3 (0 : Fin 1) r k) * V (ix3 (0 : Fin 1) k c) := by
  refine (matmulAV_apply _ _ r c).trans ?_
  refine Finset.sum_congr rfl fun k _ => ?_
  rw [truncf_apply, shapeCast_1ab_ab_apply, shapeCast_1ab_ab_apply]

/-- Five blocks added left to right, at an index. -/
private theorem add4_apply (Z A B C D : FVec Ideal S512x64 .f32) (i : S512x64.Idx) :
    addf (addf (addf (addf Z A) B) C) D i = (((Z i + A i) + B i) + C i) + D i := rfl

/-- The output block a grid point stores: row `r`, channel `cc` is the four quarter products of the loaded attention
    quarters with the loaded value quarters, added left to right from zero. -/
theorem pay1_apply (v23 v30 v37 v44 : Vec Ideal S1x512x1024 .f32) (v26 v33 v40 v47 : Vec Ideal S1x1024x64 .bf16)
    (r : Fin 512) (cc : Fin 64) :
    k0_pay1 (F := Ideal) (k0_pay3 (F := Ideal) v23 v26) (k0_pay4 (F := Ideal) v30) v33 v37 v40 v44 v47 (ix3 (0 : Fin 1) r cc)
      = ctx4 (fun k => v23 (ix3 (0 : Fin 1) r k)) (fun k => v30 (ix3 (0 : Fin 1) r k)) (fun k => v37 (ix3 (0 : Fin 1) r k))
          (fun k => v44 (ix3 (0 : Fin 1) r k))
          (fun k => v26 (ix3 (0 : Fin 1) k cc)) (fun k => v33 (ix3 (0 : Fin 1) k cc)) (fun k => v40 (ix3 (0 : Fin 1) k cc))
          (fun k => v47 (ix3 (0 : Fin 1) k cc)) := by
  unfold k0_pay1 k0_pay3 k0_pay4
  refine (shapeCast_ab_1ab_apply _ shapeCasts_S512x64_S1x512x64 (0 : Fin 1) r cc).trans ?_
  refine (add4_apply _ _ _ _ _ _).trans ?_
  unfold ctx4
  refine congrArg₂ (· + ·) (congrArg₂ (· + ·) (congrArg₂ (· + ·) (congrArg₂ (· + ·) ?_ ?_) ?_) ?_) ?_
  · exact Ideal.ofBits_zero_f32
  · exact quarter_apply v23 v26 _ r cc
  · exact quarter_apply v30 v33 _ r cc
  · exact quarter_apply v37 v40 _ r cc
  · exact quarter_apply v44 v47 _ r cc

end Cert.KernelIdeal.PayValue

end
-- ==== Proof.KernelValue.lean ====
/-
  The kernel program's two result arrays as functions of the input, element by element.

  Grid point t = 8 b + i handles batch b and the query tile of rows 512 i … 512 i + 511.  Its key block is the batch's slab
  of the merged input, its value block the same slab with channel and position exchanged, and its query rows are rows of the
  value block.  Read at one element, the attention block is the softmax entry of the row's scores, and the output block is
  the row of weights applied to a channel of the values: the four quarter products add up to the whole product.  The 64
  blocks of each result tile it, so each result array is one function of the input; the lines after the region carry the
  attended values back to the input's layout.
-/
import proofs.«413481_j28424093564998_3_alg».proof.Proof.KernelBlocks
import proofs.«413481_j28424093564998_3_alg».proof.Proof.KernelPay
import proofs.«413481_j28424093564998_3_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open scoped BigOperators

namespace Cert.KernelIdeal.KValue

open Cert.KernelIdeal Cert.KernelIdeal.Gen Cert.KernelIdeal.Blocks Cert.KernelIdeal.PayValue
open Idealize.ShloMosaic Idealize.ShloMosaic.TcCoe Idealize.ShloMosaic.ValueIdx Idealize.SL.Sem
open Idealize.ShloMosaic.Pipeline (Dat)
open Cert.Attn

variable (m : (ℓ : Loc nD τ sig) → Buf (Elt Ideal) ℓ) (ρ : Dev nD → PrngReg)

/-- The input with its two spatial axes merged: batch, channel, position. -/
def X3 (c : Dev nD) : S8x64x4096.Idx → EReal :=
  shapeCast S8x64x4096 (m ((c : Thread nD τ).loc main_arg0)) shapeCasts_S8x64x64x64_S8x64x4096

/-- The key operand the region finds is the merged input (the change of format is the identity). -/
theorem V_keys (c : Dev nD) : (V m c main_v2 : S8x64x4096.Idx → EReal) = X3 m c := by
  show StableHlo.after hostOps0 (fun b => m (c, b)) (Proc.devRef .tc main_v2) = _
  after_results
  rfl

/-- The value operand the region finds is the merged input with channel and position exchanged. -/
theorem V_vals (c : Dev nD) : (V m c main_v3 : S8x4096x64.Idx → EReal)
    = transpose S8x4096x64 [0, 2, 1] (X3 m c) transposes_S8x64x4096_S8x4096x64_0_2_1 := by
  show StableHlo.after hostOps0 (fun b => m (c, b)) (Proc.devRef .tc main_v3) = _
  after_results
  rfl

/-- The value operand at (b, n, cc) is the merged input at (b, cc, n). -/
theorem V_vals_apply (c : Dev nD) (b : Fin 8) (n : Fin 4096) (cc : Fin 64) :
    (V m c main_v3 : S8x4096x64.Idx → EReal) (ix3 b n cc) = X3 m c (ix3 b cc n) := by
  rw [V_vals]
  exact transpose_apply [0, 2, 1] (X3 m c) transposes_S8x64x4096_S8x4096x64_0_2_1 (ix3 b n cc) (ix3 b cc n) (fun a => match a with
    | ⟨0, _⟩ => rfl
    | ⟨1, _⟩ => rfl
    | ⟨2, _⟩ => rfl)

/-- The grid: point t is batch t / 8, query tile t % 8.  The printed index maps, decided over the 64 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = t.val % 8 ∧ win0_3.index t (2 : Fin 3) = 0
    ∧ k0_off1 (grid0.coords t) (0 : Fin 3) = 0 ∧ k0_off1 (grid0.coords t) (1 : Fin 3) = 512 * (t.val % 8)
    ∧ k0_off1 (grid0.coords t) (2 : Fin 3) = 0 :=
  (by decide +kernel : ∀ t : Fin grid0.N, _)

theorem t_lt (t : Fin cfg0.N) : t.val < 64 := lt_of_lt_of_eq t.isLt N_0

/-- The batch of a point, and a row of the point's query tile as a position of the batch. -/
def batchOf (t : Fin cfg0.N) : Fin 8 := ⟨t.val / 8, by have := t_lt t; omega⟩
def rowOf (t : Fin cfg0.N) (r : Fin 512) : Fin 4096 := ⟨512 * (t.val % 8) + r.val, by have := t_lt t; have := r.isLt; omega⟩

/-- The key block of a point is the batch's slab of the merged input. -/
theorem keys_apply (c : Dev nD) (t : Fin cfg0.N) (cc : Fin 64) (mm : Fin 4096) :
    (iblk m c 0 t : S1x64x4096.Idx → EReal) (ix3 (0 : Fin 1) cc mm) = X3 m c (ix3 (batchOf t) cc mm) := by
  obtain ⟨e0, e1, e2, -⟩ := idx_facts t
  unfold iblk
  rw [View.read_apply]
  show (V m c main_v2 : S8x64x4096.Idx → EReal) _ = _
  rw [V_keys]
  congr 1
  funext a
  apply Fin.ext
  match a with
  | ⟨0, _⟩ => show win0_0.index t (0 : Fin 3) * 1 + 1 * 0 = t.val / 8; omega
  | ⟨1, _⟩ => show win0_0.index t (1 : Fin 3) * 64 + 1 * cc.val = cc.val; omega
  | ⟨2, _⟩ => show win0_0.index t (2 : Fin 3) * 4096 + 1 * mm.val = mm.val; omega

/-- The value block of a point is the batch's slab of the exchanged input. -/
theorem vals_apply (c : Dev nD) (t : Fin cfg0.N) (n : Fin 4096) (cc : Fin 64) :
    (iblk m c 1 t : S1x4096x64.Idx → EReal) (ix3 (0 : Fin 1) n cc) = X3 m c (ix3 (batchOf t) cc n) := by
  obtain ⟨-, -, -, e0, e1, e2, -⟩ := idx_facts t
  rw [← V_vals_apply]
  unfold iblk
  rw [View.read_apply]
  show (V m c main_v3 : S8x4096x64.Idx → EReal) _ = _
  congr 1
  funext a
  apply Fin.ext
  match a with
  | ⟨0, _⟩ => show win0_1.index t (0 : Fin 3) * 1 + 1 * 0 = t.val / 8; omega
  | ⟨1, _⟩ => show win0_1.index t (1 : Fin 3) * 4096 + 1 * n.val = n.val; omega
  | ⟨2, _⟩ => show win0_1.index t (2 : Fin 3) * 64 + 1 * cc.val = cc.val; omega

/-! ## The attention block and the output block of a point, element by element -/

/-- The softmax entry (reciprocal spelling) of position `n` of batch `b` against position `mm`. -/
def attn3 (c : Dev nD) (b : Fin 8) (n mm : Fin 4096) : EReal :=
  attnMul (score (fun cc => X3 m c (ix3 b cc n)) (fun cc k => X3 m c (ix3 b cc k))) mm

/-- Row (b, n) of those weights applied to channel `cc`. -/
def ctx3 (c : Dev nD) (b : Fin 8) (n : Fin 4096) (cc : Fin 64) : EReal :=
  ctx (fun mm => attn3 m c b n mm) (fun mm => X3 m c (ix3 b cc mm))

/-- The attention result as one function of the input. -/
def G3 (c : Dev nD) : S8x4096x4096.Idx → EReal := fun i => attn3 m c (i 0) (i 1) (i 2)

/-- The attended values as one function of the input. -/
def G2 (c : Dev nD) : S8x4096x64.Idx → EReal := fun i => ctx3 m c (i 0) (i 1) (i 2)

/-- Row `r` of the point's query rows is row `512 (t % 8) + r` of the value block. -/
theorem qidx (t : Fin cfg0.N) (r : Fin 512) (cc : Fin 64) :
    (qRect (grid0.coords t)).idx (ix3 (0 : Fin 1) r cc) = ix3 (0 : Fin 1) (rowOf t r) cc := by
  obtain ⟨-, -, -, -, -, -, -, -, -, -, -, -, e0, e1, e2⟩ := idx_facts t
  funext a
  apply Fin.ext
  match a with
  | ⟨0, _⟩ => show k0_off1 (grid0.coords t) (0 : Fin 3) + 1 * 0 = 0; omega
  | ⟨1, _⟩ => show k0_off1 (grid0.coords t) (1 : Fin 3) + 1 * r.val = 512 * (t.val % 8) + r.val; omega
  | ⟨2, _⟩ => show k0_off1 (grid0.coords t) (2 : Fin 3) + 1 * cc.val = cc.val; omega

/-- The attention block of point `t` at row `r`, column `mm`. -/
theorem attn_at (c : Dev nD) (t : Fin cfg0.N) (y : S1x512x4096.Idx) :
    (attnBlock (grid0.coords t) (iblk m c 0 t) (iblk m c 1 t) : S1x512x4096.Idx → EReal) y
      = attn3 m c (batchOf t) (rowOf t (y 1)) (y 2) := by
  obtain ⟨u, r, mm, rfl⟩ : ∃ (u : Fin 1) (r : Fin 512) (mm : Fin 4096), y = ix3 u r mm := ⟨y 0, y 1, y 2, eq_ix3 y⟩
  obtain rfl : u = 0 := Subsingleton.elim _ _
  unfold attnBlock
  rw [pay2_apply]
  refine congrArg₂ (fun q K => attnMul (score q K) mm) ?_ ?_
  · funext cc
    show (iblk m c 1 t : S1x4096x64.Idx → EReal) ((qRect (grid0.coords t)).idx (ix3 (0 : Fin 1) r cc)) = _
    rw [qidx, vals_apply]
  · funext cc k
    exact keys_apply m c t cc k

/-- The quarters of the attention block and of the value rows, by position. -/
theorem aidx0 (r : Fin 512) (k : Fin 1024) : aRect0.idx (ix3 (0 : Fin 1) r k) = ix3 (0 : Fin 1) r (shift 0 (by omega) k) := by
  funext a; apply Fin.ext
  match a with
  | ⟨0, _⟩ => rfl
  | ⟨1, _⟩ => show 0 + 1 * r.val = r.val; omega
  | ⟨2, _⟩ => show 0 + 1 * k.val = 0 + k.val; omega
theorem aidx1 (r : Fin 512) (k : Fin 1024) : aRect1.idx (ix3 (0 : Fin 1) r k) = ix3 (0 : Fin 1) r (shift 1024 (by omega) k) := by
  funext a; apply Fin.ext
  match a with
  | ⟨0, _⟩ => rfl
  | ⟨1, _⟩ => show 0 + 1 * r.val = r.val; omega
  | ⟨2, _⟩ => show 1024 + 1 * k.val = 1024 + k.val; omega
theorem aidx2 (r : Fin 512) (k : Fin 1024) : aRect2.idx (ix3 (0 : Fin 1) r k) = ix3 (0 : Fin 1) r (shift 2048 (by omega) k) := by
  funext a; apply Fin.ext
  match a with
  | ⟨0, _⟩ => rfl
  | ⟨1, _⟩ => show 0 + 1 * r.val = r.val; omega
  | ⟨2, _⟩ => show 2048 + 1 * k.val = 2048 + k.val; omega
theorem aidx3 (r : Fin 512) (k : Fin 1024) : aRect3.idx (ix3 (0 : Fin 1) r k) = ix3 (0 : Fin 1) r (shift 3072 (by omega) k) := by
  funext a; apply Fin.ext
  match a with
  | ⟨0, _⟩ => rfl
  | ⟨1, _⟩ => show 0 + 1 * r.val = r.val; omega
  | ⟨2, _⟩ => show 3072 + 1 * k.val = 3072 + k.val; omega
theorem vidx0 (k : Fin 1024) (cc : Fin 64) : vRect0.idx (ix3 (0 : Fin 1) k cc) = ix3 (0 : Fin 1) (shift 0 (by omega) k) cc := by
  funext a; apply Fin.ext
  match a with
  | ⟨0, _⟩ => rfl
  | ⟨1, _⟩ => show 0 + 1 * k.val = 0 + k.val; omega
  | ⟨2, _⟩ => show 0 + 1 * cc.val = cc.val; omega
theorem vidx1 (k : Fin 1024) (cc : Fin 64) : vRect1.idx (ix3 (0 : Fin 1) k cc) = ix3 (0 : Fin 1) (shift 1024 (by omega) k) cc := by
  funext a; apply Fin.ext
  match a with
  | ⟨0, _⟩ => rfl
  | ⟨1, _⟩ => show 1024 + 1 * k.val = 1024 + k.val; omega
  | ⟨2, _⟩ => show 0 + 1 * cc.val = cc.val; omega
theorem vidx2 (k : Fin 1024) (cc : Fin 64) : vRect2.idx (ix3 (0 : Fin 1) k cc) = ix3 (0 : Fin 1) (shift 2048 (by omega) k) cc := by
  funext a; apply Fin.ext
  match a with
  | ⟨0, _⟩ => rfl
  | ⟨1, _⟩ => show 2048 + 1 * k.val = 2048 + k.val; omega
  | ⟨2, _⟩ => show 0 + 1 * cc.val = cc.val; omega
theorem vidx3 (k : Fin 1024) (cc : Fin 64) : vRect3.idx (ix3 (0 : Fin 1) k cc) = ix3 (0 : Fin 1) (shift 3072 (by omega) k) cc := by
  funext a; apply Fin.ext
  match a with
  | ⟨0, _⟩ => rfl
  | ⟨1, _⟩ => show 3072 + 1 * k.val = 3072 + k.val; omega
  | ⟨2, _⟩ => show 0 + 1 * cc.val = cc.val; omega

theorem ctx4_congr {A0 A1 A2 A3 V0 V1 V2 V3 A0' A1' A2' A3' V0' V1' V2' V3' : Fin 1024 → EReal}
    (a0 : A0 = A0') (a1 : A1 = A1') (a2 : A2 = A2') (a3 : A3 = A3') (v0 : V0 = V0') (v1 : V1 = V1') (v2 : V2 = V2') (v3 : V3 = V3') :
    ctx4 A0 A1 A2 A3 V0 V1 V2 V3 = ctx4 A0' A1' A2' A3' V0' V1' V2' V3' := by
  subst a0 a1 a2 a3 v0 v1 v2 v3; rfl

/-- The output block of point `t` at row `r`, channel `cc`: the four quarter products are the whole row's product. -/
theorem ctx_at (c : Dev nD) (t : Fin cfg0.N) (y : S1x512x64.Idx) :
    (ctxBlock (grid0.coords t) (iblk m c 0 t) (iblk m c 1 t) : S1x512x64.Idx → EReal) y
      = ctx3 m c (batchOf t) (rowOf t (y 1)) (y 2) := by
  obtain ⟨u, r, cc, rfl⟩ : ∃ (u : Fin 1) (r : Fin 512) (cc : Fin 64), y = ix3 u r cc := ⟨y 0, y 1, y 2, eq_ix3 y⟩
  obtain rfl : u = 0 := Subsingleton.elim _ _
  unfold ctxBlock
  rw [pay1_apply]
  show _ = ctx (fun mm => attn3 m c (batchOf t) (rowOf t r) mm) (fun mm => X3 m c (ix3 (batchOf t) cc mm))
  rw [← ctx4_eq_ctx]
  refine ctx4_congr (funext fun k => ?_) (funext fun k => ?_) (funext fun k => ?_) (funext fun k => ?_)
    (funext fun k => ?_) (funext fun k => ?_) (funext fun k => ?_) (funext fun k => ?_)
  · show (attnBlock (grid0.coords t) (iblk m c 0 t) (iblk m c 1 t) : S1x512x4096.Idx → EReal) (aRect0.idx (ix3 (0 : Fin 1) r k)) = _
    rw [aidx0, attn_at]
  · show (attnBlock (grid0.coords t) (iblk m c 0 t) (iblk m c 1 t) : S1x512x4096.Idx → EReal) (aRect1.idx (ix3 (0 : Fin 1) r k)) = _
    rw [aidx1, attn_at]
  · show (attnBlock (grid0.coords t) (iblk m c 0 t) (iblk m c 1 t) : S1x512x4096.Idx → EReal) (aRect2.idx (ix3 (0 : Fin 1) r k)) = _
    rw [aidx2, attn_at]
  · show (attnBlock (grid0.coords t) (iblk m c 0 t) (iblk m c 1 t) : S1x512x4096.Idx → EReal) (aRect3.idx (ix3 (0 : Fin 1) r k)) = _
    rw [aidx3, attn_at]
  · show (iblk m c 1 t : S1x4096x64.Idx → EReal) (vRect0.idx (ix3 (0 : Fin 1) k cc)) = _
    rw [vidx0, vals_apply]
  · show (iblk m c 1 t : S1x4096x64.Idx → EReal) (vRect1.idx (ix3 (0 : Fin 1) k cc)) = _
    rw [vidx1, vals_apply]
  · show (iblk m c 1 t : S1x4096x64.Idx → EReal) (vRect2.idx (ix3 (0 : Fin 1) k cc)) = _
    rw [vidx2, vals_apply]
  · show (iblk m c 1 t : S1x4096x64.Idx → EReal) (vRect3.idx (ix3 (0 : Fin 1) k cc)) = _
    rw [vidx3, vals_apply]

/-! ## From blocks to arrays -/

theorem attn3_congr (c : Dev nD) {b b' : Fin 8} {n n' mm mm' : Fin 4096} (hb : b = b') (hn : n = n') (hm : mm = mm') :
    attn3 m c b n mm = attn3 m c b' n' mm' := by subst hb hn hm; rfl
theorem ctx3_congr (c : Dev nD) {b b' : Fin 8} {n n' : Fin 4096} {cc cc' : Fin 64} (hb : b = b') (hn : n = n') (hc : cc = cc') :
    ctx3 m c b n cc = ctx3 m c b' n' cc' := by subst hb hn hc; rfl

/-- What point `t` writes back to the attention result is block `t` of `G3`. -/
theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold outsAt0
  dsimp only
  rw [out3_eq]
  obtain ⟨-, -, -, -, -, -, -, -, -, e0, e1, e2, -⟩ := idx_facts t
  funext y
  show (attnBlock (grid0.coords t) (iblk m c 0 t) (iblk m c 1 t) : S1x512x4096.Idx → EReal) y
    = G3 m c (((cfg0.win 3).blk t).view.emb y)
  rw [attn_at]
  have hy0 : (y 0).val < 1 := (y 0).isLt
  have hy1 : (y 1).val < 512 := (y 1).isLt
  refine attn3_congr m c ?_ ?_ ?_
  · apply Fin.ext
    show t.val / 8 = win0_3.index t (0 : Fin 3) * 1 + 1 * (y 0).val
    omega
  · apply Fin.ext
    show 512 * (t.val % 8) + (y 1).val = win0_3.index t (1 : Fin 3) * 512 + 1 * (y 1).val
    omega
  · apply Fin.ext
    show (y 2).val = win0_3.index t (2 : Fin 3) * 4096 + 1 * (y 2).val
    omega

/-- What point `t` writes back to the attended values is block `t` of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  unfold outsAt0
  dsimp only
  rw [out2_eq]
  obtain ⟨-, -, -, -, -, -, e0, e1, e2, -⟩ := idx_facts t
  funext y
  show (ctxBlock (grid0.coords t) (iblk m c 0 t) (iblk m c 1 t) : S1x512x64.Idx → EReal) y
    = G2 m c (((cfg0.win 2).blk t).view.emb y)
  rw [ctx_at]
  have hy0 : (y 0).val < 1 := (y 0).isLt
  have hy1 : (y 1).val < 512 := (y 1).isLt
  refine ctx3_congr m c ?_ ?_ ?_
  · apply Fin.ext
    show t.val / 8 = win0_2.index t (0 : Fin 3) * 1 + 1 * (y 0).val
    omega
  · apply Fin.ext
    show 512 * (t.val % 8) + (y 1).val = win0_2.index t (1 : Fin 3) * 512 + 1 * (y 1).val
    omega
  · apply Fin.ext
    show (y 2).val = win0_2.index t (2 : Fin 3) * 64 + 1 * (y 2).val
    omega

/-- An index of the attention result is in point `t`'s block iff each coordinate is in the block's range. -/
theorem mem_blk3 (t : Fin cfg0.N) (i : S8x4096x4096.Idx) :
    i ∈ ((cfg0.win 3).blk t).view.set ↔ ∀ a : Fin 3, win0_3.index t a * S1x512x4096.size a ≤ (i a).val
      ∧ (i a).val < win0_3.index t a * S1x512x4096.size a + S1x512x4096.size a := by
  show i ∈ ((View.whole main_v4_1).slice (win0_3.rect t)).set ↔ _
  rw [View.set_slice_whole, Rect.mem_set_unit]
  exact Iff.rfl

theorem mem_blk2 (t : Fin cfg0.N) (i : S8x4096x64.Idx) :
    i ∈ ((cfg0.win 2).blk t).view.set ↔ ∀ a : Fin 3, win0_2.index t a * S1x512x64.size a ≤ (i a).val
      ∧ (i a).val < win0_2.index t a * S1x512x64.size a + S1x512x64.size a := by
  show i ∈ ((View.whole main_v4_0).slice (win0_2.rect t)).set ↔ _
  rw [View.set_slice_whole, Rect.mem_set_unit]
  exact Iff.rfl

/-- The point whose block holds row `n` of batch `b`: `8 b + n / 512`. -/
def pointOf (b n : Nat) (hb : b < 8) (hn : n < 4096) : Fin cfg0.N :=
  ⟨8 * b + n / 512, lt_of_lt_of_eq (by omega) N_0.symm⟩

/-- The blocks of the attention result tile it. -/
theorem cover3 (c : Dev nD) (i : S8x4096x4096.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 4096 := (i 2).isLt
  refine ⟨pointOf (i 0).val (i 1).val h0 h1, flush0_3 _, ?_⟩
  rw [mem_blk3]
  obtain ⟨-, -, -, -, -, -, -, -, -, e0, e1, e2, -⟩ := idx_facts (pointOf (i 0).val (i 1).val h0 h1)
  have hv : (pointOf (i 0).val (i 1).val h0 h1).val = 8 * (i 0).val + (i 1).val / 512 := rfl
  intro a
  match a with
  | ⟨0, _⟩ =>
    show win0_3.index _ (0 : Fin 3) * 1 ≤ (i 0).val ∧ (i 0).val < win0_3.index _ (0 : Fin 3) * 1 + 1
    rw [e0, hv]; omega
  | ⟨1, _⟩ =>
    show win0_3.index _ (1 : Fin 3) * 512 ≤ (i 1).val ∧ (i 1).val < win0_3.index _ (1 : Fin 3) * 512 + 512
    rw [e1, hv]; omega
  | ⟨2, _⟩ =>
    show win0_3.index _ (2 : Fin 3) * 4096 ≤ (i 2).val ∧ (i 2).val < win0_3.index _ (2 : Fin 3) * 4096 + 4096
    rw [e2]; omega

/-- The blocks of the attended values tile them. -/
theorem cover2 (c : Dev nD) (i : S8x4096x64.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 64 := (i 2).isLt
  refine ⟨pointOf (i 0).val (i 1).val h0 h1, flush0_2 _, ?_⟩
  rw [mem_blk2]
  obtain ⟨-, -, -, -, -, -, e0, e1, e2, -⟩ := idx_facts (pointOf (i 0).val (i 1).val h0 h1)
  have hv : (pointOf (i 0).val (i 1).val h0 h1).val = 8 * (i 0).val + (i 1).val / 512 := rfl
  intro a
  match a with
  | ⟨0, _⟩ =>
    show win0_2.index _ (0 : Fin 3) * 1 ≤ (i 0).val ∧ (i 0).val < win0_2.index _ (0 : Fin 3) * 1 + 1
    rw [e0, hv]; omega
  | ⟨1, _⟩ =>
    show win0_2.index _ (1 : Fin 3) * 512 ≤ (i 1).val ∧ (i 1).val < win0_2.index _ (1 : Fin 3) * 512 + 512
    rw [e1, hv]; omega
  | ⟨2, _⟩ =>
    show win0_2.index _ (2 : Fin 3) * 64 ≤ (i 2).val ∧ (i 2).val < win0_2.index _ (2 : Fin 3) * 64 + 64
    rw [e2]; omega

/-- The attention result after the region. -/
theorem final3 (c : Dev nD) : (dats m 0 c).arrAt 3 cfg0.N = G3 m c :=
  (dats m 0 c).arrAt_eq_of_cover 3 (G3 m c) (fun t _ => flushed3_eq m c t) (cover3 c)

/-- The attended values after the region. -/
theorem final2 (c : Dev nD) : (dats m 0 c).arrAt 2 cfg0.N = G2 m c :=
  (dats m 0 c).arrAt_eq_of_cover 2 (G2 m c) (fun t _ => flushed2_eq m c t) (cover2 c)

/-! ## The run -/

/-- The lines after the region: channel and position exchanged back, the position axis split into its two spatial axes. -/
def tail (y : S8x4096x64.Idx → EReal) : S8x64x64x64.Idx → EReal :=
  shapeCast S8x64x64x64 (transpose S8x64x4096 [0, 2, 1] y transposes_S8x4096x64_S8x64x4096_0_2_1) shapeCasts_S8x64x4096_S8x64x64x64

/-- What the first result holds after the lines that follow the region. -/
theorem tail_eq (c : Dev nD) :
    Pipeline.afterTail₀ cfgs (dats m) 0 (V0 m) [hostOps1] c main_v6 = tail (G2 m c) := by
  unfold Pipeline.afterTail₀
  show StableHlo.after hostOps1 _ (Proc.devRef .tc main_v6) = _
  after_results
  unfold tail
  rw [show Pipeline.withArrays (cfgs 0).spec c (V0 m c) (fun w => (dats m 0 c).arrAt w (cfgs 0).N) (Proc.devRef .tc main_v4_0)
    = G2 m c from (Pipeline.withArrays_arr spec0 launch0.win.arr_inj c _ _ 2).trans (final2 m c)]
  rfl

/-- Every weakly fair execution of the kernel program terminates with the first result at the attended values carried
    through the closing lines, the second at the attention weights, and the input unchanged. -/
theorem run : θ_run defs (onTc (τ := τ) (main (F := Ideal))) ⟨m, fun _ => 0, ρ⟩ fun r => ∀ c : Dev nD,
      r.2.mem ((c.tc : Thread nD τ).loc main_v6) = tail (G2 m c)
      ∧ r.2.mem ((c.tc : Thread nD τ).loc main_v4_1) = G3 m c
      ∧ r.2.mem ((c.tc : Thread nD τ).loc main_arg0) = m ((c.tc : Thread nD τ).loc main_arg0) :=
  (θ_run defs _ _).mono (fun r h c =>
    ⟨((h c).2 main_v6 (Pipeline.mem_restRefs_of main_v6 (by decide) (by decide))).trans (tail_eq m c),
     ((h c).1 3).trans (final3 m c),
     ((h c).2 main_arg0 (Pipeline.mem_restRefs_of main_arg0 (by decide) (by decide))).trans (W_main_arg0 m (dats m) c)⟩)
    (run_main m ρ)

end Cert.KernelIdeal.KValue

end
-- ==== Proof.lean ====
/-
  Spatial self-attention over the 4096 positions of each of 8 images, 64 channels: the scores of every position against
  every position, a softmax along each row, and the rows applied back to the positions' channels; two results, the attended
  values (carried back to the input's layout) and the attention weights themselves.

  The kernel computes a tile of 512 query rows per grid point: scores against the batch's keys, the row maxima, the
  exponentials, the row sums, and the weights as the exponentials TIMES THE RECIPROCAL of the row sum; it stores the weights,
  reads them back a quarter of the key axis at a time, and adds up the four quarter products with the values.  The reference
  computes the weights as the exponentials DIVIDED BY the row sum, and one product over the whole key axis.

  On the extended reals the two agree element by element where the input is finite.  Every score is then a real number, so the
  row maximum is a real, every exponential is a positive real, and the row sum is positive, in particular not zero; and for a
  divisor that is not zero, `e * (1 / ℓ)` and `e / ℓ` are both `e * ℓ⁻¹`.  (With an infinite score the row sum can be zero,
  where `0 * (1 / 0) = 0` but `0 / 0 = ⊥`: the precondition is used.)  The four quarter products add up to the whole product by
  associativity and commutativity of addition alone.  The closing lines, the exchange of two axes and the split of the position
  axis, are the same in both programs and are carried as one function.

  The three frames are the generated ones (the reference's is its generated run with the results dropped); nothing was
  rewritten by the idealization, so its conjunct is trivial.
-/
import proofs.«413481_j28424093564998_3_alg».proof.Defs
import proofs.«413481_j28424093564998_3_alg».proof.Proof.Gen.Kernel
import proofs.«413481_j28424093564998_3_alg».proof.Proof.Gen.Kernel.Frame
import proofs.«413481_j28424093564998_3_alg».proof.Proof.Gen.KernelIdeal
import proofs.«413481_j28424093564998_3_alg».proof.Proof.Gen.KernelIdeal.Frame
import proofs.«413481_j28424093564998_3_alg».proof.Proof.Gen.ReferenceIdeal
import proofs.«413481_j28424093564998_3_alg».proof.Proof.Gen.Pre_finite_inputs
import proofs.«413481_j28424093564998_3_alg».proof.Proof.Gen.ReferenceIdeal.Run
import proofs.«413481_j28424093564998_3_alg».proof.Proof.Gen.ReferenceIdeal.Read
import proofs.«413481_j28424093564998_3_alg».proof.Proof.Spec
import proofs.«413481_j28424093564998_3_alg».proof.Proof.Finite
import proofs.«413481_j28424093564998_3_alg».proof.Proof.RefValue
import proofs.«413481_j28424093564998_3_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem
open Cert.Attn Cert.KernelIdeal.KValue Cert.ReferenceIdeal.RefValue

section Bridge

variable (m : (ℓ : Loc Cert.KernelIdeal.nD Cert.KernelIdeal.τ Cert.KernelIdeal.sig) → Buf (Elt Ideal) ℓ)

/-- The kernel program's input on device `c`, as the reference's stages take it. -/
abbrev inp (c : Dev Cert.KernelIdeal.nD) : (⟨Cert.ReferenceIdeal.S8x64x64x64, .f32⟩ : BufTy).Contents (Elt Ideal) :=
  m ((c.tc : Thread Cert.KernelIdeal.nD Cert.KernelIdeal.τ).loc Cert.KernelIdeal.main_arg0)

/-- The merged input is the reference's first stage. -/
theorem X3_eq (c : Dev Cert.KernelIdeal.nD) (b : Fin 8) (cc : Fin 64) (n : Fin 4096) :
    X3 m c (ix3 b cc n) = X (inp m c) b cc n := rfl

/-- Under the precondition every entry of the merged input is a real number. -/
theorem isReal_X (hpre : Cert.Pre_KernelIdeal m) (c : Dev Cert.KernelIdeal.nD) (b : Fin 8) (cc : Fin 64) (n : Fin 4096) :
    IsReal (X (inp m c) b cc n) := by
  unfold X
  rw [Cert.ReferenceIdeal.Read.val_main_v0_apply]
  exact Cert.Pre_finite_inputs.Finite.real_of_pre (inp m c) (hpre c) _

/-- The kernel's attention weights are the reference's. -/
theorem G3_eq (hpre : Cert.Pre_KernelIdeal m) (c : Dev Cert.KernelIdeal.nD) :
    G3 m c = Cert.ReferenceIdeal.Read.val_main_v13 (F := Ideal) (inp m c) := by
  funext i
  obtain ⟨b, n, mm, rfl⟩ : ∃ (b : Fin 8) (n mm : Fin 4096), i = ix3 b n mm := ⟨i 0, i 1, i 2, eq_ix3 i⟩
  rw [ref_attn_apply]
  show attnMul (score (fun cc => X (inp m c) b cc n) (fun cc k => X (inp m c) b cc k)) mm = _
  exact attnMul_eq_attnDiv _ (isReal_score _ _ (fun cc => isReal_X m hpre c b cc n) (fun cc k => isReal_X m hpre c b cc k)) mm

/-- The kernel's attended values are the reference's. -/
theorem G2_eq (hpre : Cert.Pre_KernelIdeal m) (c : Dev Cert.KernelIdeal.nD) :
    G2 m c = Cert.ReferenceIdeal.Read.val_main_v14 (F := Ideal) (inp m c) := by
  funext i
  obtain ⟨b, n, cc, rfl⟩ : ∃ (b : Fin 8) (n : Fin 4096) (cc : Fin 64), i = ix3 b n cc := ⟨i 0, i 1, i 2, eq_ix3 i⟩
  rw [ref_ctx_apply]
  show ctx (fun mm => attn3 m c b n mm) (fun mm => X (inp m c) b cc mm) = _
  have hA : (fun mm => attn3 m c b n mm) = fun mm => Cert.ReferenceIdeal.Read.val_main_v13 (F := Ideal) (inp m c) (ix3 b n mm) :=
    funext fun mm => congrFun (G3_eq m hpre c) (ix3 b n mm)
  rw [hA]

/-- The closing lines of the kernel program are the reference's last two stages. -/
theorem tail_eq_ref (c : Dev Cert.KernelIdeal.nD) :
    tail (Cert.ReferenceIdeal.Read.val_main_v14 (F := Ideal) (inp m c)) = Cert.ReferenceIdeal.Read.val_main_v16 (F := Ideal) (inp m c) := rfl

end Bridge

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same two arrays: the reference's attended values carried through its closing lines, and its
    attention weights, of the common input. -/
theorem algebraic : Cert.algebraic_KernelIdeal_ReferenceIdeal := by
  intro m ρ m' ρ' hpre hagree
  refine ⟨fun c => Cert.ReferenceIdeal.Read.val_main_v16 (F := Ideal) (inp m c),
    fun c => Cert.ReferenceIdeal.Read.val_main_v13 (F := Ideal) (inp m c), ?_, ?_⟩
  · refine (θ_run Cert.KernelIdeal.defs _ _).mono (fun r h c => ⟨(h c).1.trans ?_, (h c).2.1.trans ?_, (h c).2.2⟩)
      (Cert.KernelIdeal.KValue.run m ρ)
    · rw [G2_eq m hpre c]; exact tail_eq_ref m c
    · exact G3_eq m hpre c
  · refine (θ_run Cert.ReferenceIdeal.defs _ _).mono (fun r h c => ⟨(h c).1.trans ?_, (h c).2.1.trans ?_, (h c).2.2⟩)
      (Cert.ReferenceIdeal.Value.run (F := Ideal) m' ρ')
    · rw [hagree c]; exact Cert.ReferenceIdeal.Read.val_main_v16_eq (F := Ideal) (inp m c)
    · rw [hagree c]; exact Cert.ReferenceIdeal.Read.val_main_v13_eq (F := Ideal) (inp m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
